-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x48 : Shape := ⟨2, ![1600000, 48]⟩
abbrev S8x64 : Shape := ⟨2, ![8, 64]⟩
abbrev S240x128 : Shape := ⟨2, ![240, 128]⟩
abbrev S128 : Shape := ⟨1, ![128]⟩
abbrev S1600000 : Shape := ⟨1, ![1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x48 : S_.BroadcastsInDim S1600000x48 (![] : Fin 0 → Fin S1600000x48.rank)
  reducesTo_S1600000x48_S_d0_1 : S1600000x48.ReducesTo [0, 1] S_
  bcast_S_S8x64 : S_.BroadcastsInDim S8x64 (![] : Fin 0 → Fin S8x64.rank)
  reducesTo_S8x64_S_d0_1 : S8x64.ReducesTo [0, 1] S_
  bcast_S_S240x128 : S_.BroadcastsInDim S240x128 (![] : Fin 0 → Fin S240x128.rank)
  reducesTo_S240x128_S_d0_1 : S240x128.ReducesTo [0, 1] S_
  bcast_S_S128 : S_.BroadcastsInDim S128 (![] : Fin 0 → Fin S128.rank)
  reducesTo_S128_S_d0 : S128.ReducesTo [0] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg4 : FVec F S128 .f32) (main_arg6 : IVec S100000 32) (main_v13 : IVec S_ 1) (main_v16 : IVec S240x128 1) : IVec S_ 1 :=
  let main_c_5 : IVec S_ 1 := constantI S_ 1 1#1
  let main_v17 : IVec S_ 1 := (fun x v => Host.reduce IntOp.andi x v reducesTo_S240x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S100000 32 := broadcastInDim S100000 ![] bcast_S_S100000 main_c_8
  let main_v25 : IVec S100000 1 := cmpi .sge main_arg6 main_v24
  let main_c_9 : IVec S_ 1 := constantI S_ 1 1#1
  let main_v26 : IVec S_ 1 := (fun x v => Host.reduce IntOp.andi x v reducesTo_S100000_S_d0 h_S_) main_v25 main_c_9
  let main_v27 : IVec S_ 1 := andi main_v23 main_v26
  main_v27

def fn {F : FTy → Type} [FloatOps F] (main_arg0 : FVec F S100000x128 .f32) (main_arg1 : FVec F S1600000x48 .f32) (main_arg2 : FVec F S8x64 .f32) (main_arg3 : FVec F S240x128 .f32) (main_arg4 : FVec F S128 .f32) (main_arg5 : IVec S1600000 32) (main_arg6 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x48 .f32 := Host.absf main_arg1
  let main_cst_0 : FVec F S_ .f32 := constant S_ .f32 0x7F800000#32
  let main_v5 : FVec F S1600000x48 .f32 := broadcastInDim S1600000x48 ![] bcast_S_S1600000x48 main_cst_0
  let main_v6 : IVec S1600000x48 1 := cmpf .olt main_v4 main_v5
  let main_c_1 : IVec S_ 1 := constantI S_ 1 1#1
  let main_v7 : IVec S_ 1 := (fun x v => Host.reduce IntOp.andi x v reducesTo_S1600000x48_S_d0_1 h_S_) main_v6 main_c_1
  let main_v8 : IVec S_ 1 := andi main_v3 main_v7
  let main_v9 : FVec F S8x64 .f32 := Host.absf main_arg2
  let main_cst_2 : FVec F S_ .f32 := constant S_ .f32 0x7F800000#32
  let main_v10 : FVec F S8x64 .f32 := broadcastInDim S8x64 ![] bcast_S_S8x64 main_cst_2
  let main_v11 : IVec S8x64 1 := cmpf .olt main_v9 main_v10
  let main_c_3 : IVec S_ 1 := constantI S_ 1 1#1
  let main_v12 : IVec S_ 1 := (fun x v => Host.reduce IntOp.andi x v reducesTo_S8x64_S_d0_1 h_S_) main_v11 main_c_3
  let main_v13 : IVec S_ 1 := andi main_v8 main_v12
  let main_v14 : FVec F S240x128 .f32 := Host.absf main_arg3
  let main_cst_4 : FVec F S_ .f32 := constant S_ .f32 0x7F800000#32
  let main_v15 : FVec F S240x128 .f32 := broadcastInDim S240x128 ![] bcast_S_S240x128 main_cst_4
  let main_v16 : IVec S240x128 1 := cmpf .olt main_v14 main_v15
  fn_part1 (F := F) main_arg4 main_arg6 main_v13 main_v16
-- ==== Kernel.lean ====
abbrev S100000x128 : Shape := ⟨2, ![100000, 128]⟩
abbrev S1600000x48 : Shape := ⟨2, ![1600000, 48]⟩
abbrev S8x64 : Shape := ⟨2, ![8, 64]⟩
abbrev S240x128 : Shape := ⟨2, ![240, 128]⟩
abbrev S128 : Shape := ⟨1, ![128]⟩
abbrev S1600000 : Shape := ⟨1, ![1600000]⟩
abbrev S100000 : Shape := ⟨1, ![100000]⟩
abbrev S_ : Shape := ⟨0, ![]⟩
abbrev S100000x48 : Shape := ⟨2, ![100000, 48]⟩
abbrev S1600000x1 : Shape := ⟨2, ![1600000, 1]⟩
abbrev S100000x1 : Shape := ⟨2, ![100000, 1]⟩
abbrev S1x8 : Shape := ⟨2, ![1, 8]⟩
abbrev S100000x8 : Shape := ⟨2, ![100000, 8]⟩
abbrev S128x128 : Shape := ⟨2, ![128, 128]⟩
abbrev S48x128 : Shape := ⟨2, ![48, 128]⟩
abbrev S64x128 : Shape := ⟨2, ![64, 128]⟩
abbrev S8x128 : Shape := ⟨2, ![8, 128]⟩
abbrev S1x128 : Shape := ⟨2, ![1, 128]⟩
abbrev S5000x128 : Shape := ⟨2, ![5000, 128]⟩
abbrev S5000x48 : Shape := ⟨2, ![5000, 48]⟩
abbrev S5000x8 : Shape := ⟨2, ![5000, 8]⟩

abbrev nBuf : Space → Nat
  | .hbm => 34
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S1600000x48, .f32⟩
  | .hbm, ⟨2, _⟩ => ⟨S8x64, .f32⟩
  | .hbm, ⟨3, _⟩ => ⟨S240x128, .f32⟩
  | .hbm, ⟨4, _⟩ => ⟨S128, .f32⟩
  | .hbm, ⟨5, _⟩ => ⟨S1600000, .i32⟩
  | .hbm, ⟨6, _⟩ => ⟨S100000, .i32⟩
  | .hbm, ⟨7, _⟩ => ⟨S_, .f32⟩
  | .hbm, ⟨8, _⟩ => ⟨S100000x48, .f32⟩
  | .hbm, ⟨9, _⟩ => ⟨S1600000x1, .i32⟩
  | .hbm, ⟨10, _⟩ => ⟨S100000x48, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S100000, .i32⟩
  | .hbm, ⟨15, _⟩ => ⟨S100000, .i32⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S100000x1, .i32⟩
  | .hbm, ⟨20, _⟩ => ⟨S1x8, .i32⟩
  | .hbm, ⟨21, _⟩ => ⟨S100000x8, .i32⟩
  | .hbm, ⟨22, _⟩ => ⟨S100000x8, .i32⟩
  | .hbm, ⟨23, _⟩ => ⟨S100000x8, .i1⟩
  | .hbm, ⟨24, _⟩ => ⟨S100000x8, .bf16⟩
  | .hbm, ⟨25, _⟩ => ⟨S128x128, .f32⟩
  | .hbm, ⟨26, _⟩ => ⟨S48x128, .f32⟩
  | .hbm, ⟨27, _⟩ => ⟨S64x128, .f32⟩
  | .hbm, ⟨28, _⟩ => ⟨S8x128, .f32⟩
  | .hbm, ⟨29, _⟩ => ⟨S8x128, .bf16⟩
  | .hbm, ⟨30, _⟩ => ⟨S128x128, .bf16⟩
  | .hbm, ⟨31, _⟩ => ⟨S48x128, .bf16⟩
  | .hbm, ⟨32, _⟩ => ⟨S1x128, .f32⟩
  | .hbm, ⟨33, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x48, .f32⟩
  | .local _ .vmem, ⟨3, _⟩ => ⟨S5000x48, .f32⟩
  | .local _ .vmem, ⟨4, _⟩ => ⟨S5000x8, .bf16⟩
  | .local _ .vmem, ⟨5, _⟩ => ⟨S5000x8, .bf16⟩
  | .local _ .vmem, ⟨6, _⟩ => ⟨S128x128, .bf16⟩
  | .local _ .vmem, ⟨7, _⟩ => ⟨S48x128, .bf16⟩
  | .local _ .vmem, ⟨8, _⟩ => ⟨S8x128, .bf16⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x8 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S100000x48 : S_.BroadcastsInDim S100000x48 (![] : Fin 0 → Fin S100000x48.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  bcast_S1x8_S100000x8_0_1 : S1x8.BroadcastsInDim S100000x8 (![0, 1] : Fin 2 → Fin S100000x8.rank)
  slices_S240x128_S128x128_0_0 : S240x128.Slices ![0, 0] S128x128
  slices_S240x128_S48x128_128_0 : S240x128.Slices ![128, 0] S48x128
  slices_S240x128_S64x128_176_0 : S240x128.Slices ![176, 0] S64x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S5000x48_S5000x48_0_0 : ∀ a, (![0, 0] : Fin 2 → Nat) a + S5000x48.size a ≤ S5000x48.size a
  h_S5000x48 : 0 < S5000x48.numel
  shapeCasts_S5000x48_S5000x48 : S5000x48.ShapeCasts S5000x48
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S48x128_S48x128_0_0 : ∀ a, (![0, 0] : Fin 2 → Nat) a + S48x128.size a ≤ S48x128.size a
  h_S48x128 : 0 < S48x128.numel
  shapeCasts_S48x128_S48x128 : S48x128.ShapeCasts S48x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000x48_S1600000x1_S1600000x48_1_0_0_1_wf : ScatterDims.WF S100000x48 S1600000x1 S1600000x48 [1] [0] [0] 1
  dot_S8x64_S64x128_S8x128_1_0_0_1_n_n_wf : DotDims.WF S8x64 S64x128 S8x128 [1] [0] [0] [1] [] []
  dot_S5000x128_S128x128_S5000x128_1_0_0_1_n_n_wf : DotDims.WF S5000x128 S128x128 S5000x128 [1] [0] [0] [1] [] []
  dot_S5000x48_S48x128_S5000x128_1_0_0_1_n_n_wf : DotDims.WF S5000x48 S48x128 S5000x128 [1] [0] [0] [1] [] []
  dot_S5000x8_S8x128_S5000x128_1_0_0_1_n_n_wf : DotDims.WF S5000x8 S8x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x48.size a ≤ S100000x48.size a
  hwx0_1 : ∀ i : grid0.Coords, EltTy.bits .f32 = 32 ∨ (Rect.block (s := S100000x48) S5000x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x8.size a ≤ S100000x8.size a
  hwx0_2 : ∀ i : grid0.Coords, EltTy.bits .bf16 = 32 ∨ (Rect.block (s := S100000x8) S5000x8.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S48x128.size a ≤ S48x128.size a
  hwx0_4 : ∀ i : grid0.Coords, EltTy.bits .bf16 = 32 ∨ (Rect.block (s := S48x128) S48x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x128.size a
  hwx0_5 : ∀ i : grid0.Coords, EltTy.bits .bf16 = 32 ∨ (Rect.block (s := S8x128) S8x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)

variable [Facts₀]

def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S8x64_S64x128_S8x128_1_0_0_1_n_n : DotDims S8x64 S64x128 S8x128 where
  lhsContracting := [1]
  rhsContracting := [0]
  lhsNonContracting := [0]
  rhsNonContracting := [1]
  lhsBatch := []
  rhsBatch := []
  wf := dot_S8x64_S64x128_S8x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x48_S48x128_S5000x128_1_0_0_1_n_n : DotDims S5000x48 S48x128 S5000x128 where
  lhsContracting := [1]
  rhsContracting := [0]
  lhsNonContracting := [0]
  rhsNonContracting := [1]
  lhsBatch := []
  rhsBatch := []
  wf := dot_S5000x48_S48x128_S5000x128_1_0_0_1_n_n_wf
def dot_S5000x8_S8x128_S5000x128_1_0_0_1_n_n : DotDims S5000x8 S8x128 S5000x128 where
  lhsContracting := [1]
  rhsContracting := [0]
  lhsNonContracting := [0]
  rhsNonContracting := [1]
  lhsBatch := []
  rhsBatch := []
  wf := dot_S5000x8_S8x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S5000x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S48x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S8x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000x48 : Shape := ⟨2, ![1600000, 48]⟩
abbrev S8x64 : Shape := ⟨2, ![8, 64]⟩
abbrev S240x128 : Shape := ⟨2, ![240, 128]⟩
abbrev S128 : Shape := ⟨1, ![128]⟩
abbrev S1600000 : Shape := ⟨1, ![1600000]⟩
abbrev S100000 : Shape := ⟨1, ![100000]⟩
abbrev S_ : Shape := ⟨0, ![]⟩
abbrev S100000x48 : Shape := ⟨2, ![100000, 48]⟩
abbrev S1600000x1 : Shape := ⟨2, ![1600000, 1]⟩
abbrev S100000x1 : Shape := ⟨2, ![100000, 1]⟩
abbrev S100000x64 : Shape := ⟨2, ![100000, 64]⟩
abbrev S100000x240 : Shape := ⟨2, ![100000, 240]⟩
abbrev S1x128 : Shape := ⟨2, ![1, 128]⟩

abbrev nBuf : Space → Nat
  | .hbm => 28
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x48, .f32⟩
  | .hbm, ⟨2, _⟩ => ⟨S8x64, .f32⟩
  | .hbm, ⟨3, _⟩ => ⟨S240x128, .f32⟩
  | .hbm, ⟨4, _⟩ => ⟨S128, .f32⟩
  | .hbm, ⟨5, _⟩ => ⟨S1600000, .i32⟩
  | .hbm, ⟨6, _⟩ => ⟨S100000, .i32⟩
  | .hbm, ⟨7, _⟩ => ⟨S_, .f32⟩
  | .hbm, ⟨8, _⟩ => ⟨S100000x48, .f32⟩
  | .hbm, ⟨9, _⟩ => ⟨S1600000x1, .i32⟩
  | .hbm, ⟨10, _⟩ => ⟨S100000x48, .f32⟩
  | .hbm, ⟨11, _⟩ => ⟨S_, .i32⟩
  | .hbm, ⟨12, _⟩ => ⟨S100000, .i32⟩
  | .hbm, ⟨13, _⟩ => ⟨S100000, .i1⟩
  | .hbm, ⟨14, _⟩ => ⟨S_, .i32⟩
  | .hbm, ⟨15, _⟩ => ⟨S100000, .i32⟩
  | .hbm, ⟨16, _⟩ => ⟨S100000, .i32⟩
  | .hbm, ⟨17, _⟩ => ⟨S100000, .i32⟩
  | .hbm, ⟨18, _⟩ => ⟨S100000x1, .i32⟩
  | .hbm, ⟨19, _⟩ => ⟨S100000x64, .f32⟩
  | .hbm, ⟨20, _⟩ => ⟨S100000x240, .f32⟩
  | .hbm, ⟨21, _⟩ => ⟨S100000x128, .f32⟩
  | .hbm, ⟨22, _⟩ => ⟨S1x128, .f32⟩
  | .hbm, ⟨23, _⟩ => ⟨S100000x128, .f32⟩
  | .hbm, ⟨24, _⟩ => ⟨S100000x128, .f32⟩
  | .hbm, ⟨25, _⟩ => ⟨S_, .f32⟩
  | .hbm, ⟨26, _⟩ => ⟨S100000x128, .f32⟩
  | .hbm, ⟨27, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_cst : Ref sig .tc := ⟨.hbm, 25, rfl⟩
abbrev main_call0_v0 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S_S100000x48 : S_.BroadcastsInDim S100000x48 (![] : Fin 0 → Fin S100000x48.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x128_S100000x48_S100000x64_S100000x240_d1 : Shape.Concatenates [S100000x128, S100000x48, S100000x64] S100000x240 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  scatter_S100000x48_S1600000x1_S1600000x48_1_0_0_1_wf : ScatterDims.WF S100000x48 S1600000x1 S1600000x48 [1] [0] [0] 1
  gather_S8x64_S100000x1_S100000x64_1_0_n_n_0_1_164_wf : GatherDims.WF S8x64 S100000x1 S100000x64 [1] [0] [] [0] [] 1 ![1, 64]
  dot_S100000x240_S240x128_S100000x128_1_0_0_1_n_n_wf : DotDims.WF S100000x240 S240x128 S100000x128 [1] [0] [0] [1] [] []

variable [Facts₀]

def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def gather_S8x64_S100000x1_S100000x64_1_0_n_n_0_1_164 : GatherDims S8x64 S100000x1 S100000x64 where
  offsetDims := [1]
  collapsedSliceDims := [0]
  operandBatchingDims := []
  startIndicesBatchingDims := []
  startIndexMap := [0]
  indexVectorDim := 1
  sliceSizes := ![1, 64]
  wf := gather_S8x64_S100000x1_S100000x64_1_0_n_n_0_1_164_wf
def dot_S100000x240_S240x128_S100000x128_1_0_0_1_n_n : DotDims S100000x240 S240x128 S100000x128 where
  lhsContracting := [1]
  rhsContracting := [0]
  lhsNonContracting := [0]
  rhsNonContracting := [1]
  lhsBatch := []
  rhsBatch := []
  wf := dot_S100000x240_S240x128_S100000x128_1_0_0_1_n_n_wf

class Facts : Prop extends Facts₀ where

variable [Facts]
-- ==== Proof.IdsNonneg.lean ====
/-
  The precondition's last conjunct, read at one node: every graph id is a non-negative integer.

  The precondition is a conjunction of `all`-reductions; its last one is "every `node_graph_ids` entry is `≥ 0`, signed".
  If the conjunction is 1, that reduction is 1, so the comparison is 1 at every entry.
-/
import proofs.«410478_j17386027614329_3_alg».proof.Proof.Gen.Pre_finite_inputs
import Idealize.ShloMosaic.Lib.ReduceAll
import Idealize.ShloMosaic.Lib.Affine
import Idealize.ShloMosaic.Lib.ValueIdx

noncomputable section

namespace Cert.Pre_finite_inputs.Decode

open Cert.Pre_finite_inputs Idealize.ShloMosaic

instance : Subsingleton S_.Idx := ⟨fun a b => funext fun d => d.elim0⟩

/-- Under the precondition every graph id is non-negative. -/
theorem ids_nonneg {F : FTy → Type} [FloatOps F] (x0 : FVec F S100000x128 .f32) (x1 : FVec F S1600000x48 .f32)
    (x2 : FVec F S8x64 .f32) (x3 : FVec F S240x128 .f32) (x4 : FVec F S128 .f32) (x5 : IVec S1600000 32) (x6 : IVec S100000 32)
    (h : fn (F := F) x0 x1 x2 x3 x4 x5 x6 = fun _ => 1#1) (i : S100000.Idx) : 0 ≤ (x6 i).toInt := by
  have e := congrFun h ValueIdx.ix0
  unfold fn fn_part1 at e
  dsimp only at e
  have e2 := (IntOp.andi_eq_one.mp e).2
  have e3 := Host.reduce_andi_all _ _ _ _ ValueIdx.ix0 e2 i
  have e4 := IntOp.cmpi_sge.mp e3
  have hz : (broadcastInDim S100000 ![] Facts.bcast_S_S100000 (constantI S_ 32 0#32) i : BitVec 32) = 0#32 := rfl
  rw [hz] at e4
  simpa using e4

end Cert.Pre_finite_inputs.Decode

end
-- ==== Proof.LibRowGather.lean ====
/-
  A row gather read at an index.

  `table[idx]` of a rank-2 table `[G, K]` at a vector of `n` row numbers is a `stablehlo.gather` whose start indices are
  the `[n, 1]` column of row numbers: axis 0 of the table is collapsed and start-indexed, axis 1 is carried whole as the
  result's offset axis. Result element `(p, q)` is the table's element `(r, q)`, where `r` is row number `p` read as a
  signed integer and clamped into `[0, G - 1]`.
-/
import Idealize.ShloMosaic.Lib.ValueIdx

noncomputable section

namespace Idealize.ShloMosaic.RowGather

open Idealize.ShloMosaic Idealize.ShloMosaic.ValueIdx

/-- THE ROW GATHER AT `(p, q)`: the table at the clamped row number and the same column. The hypotheses are the printed
    dimension numbers, each closed by `rfl` on a program's record. -/
theorem gather_rows_apply {α : Type} {G K n w : Nat} (hG : 0 < G)
    (d : GatherDims ⟨2, ![G, K]⟩ ⟨2, ![n, 1]⟩ ⟨2, ![n, K]⟩)
    (hoff : d.offsetDims = [1]) (hcoll : d.collapsedSliceDims = [0]) (hob : d.operandBatchingDims = [])
    (hsim : d.startIndexMap = [0]) (hivd : d.indexVectorDim = 1)
    (x : (⟨2, ![G, K]⟩ : Shape).Idx → α) (idx : IVec ⟨2, ![n, 1]⟩ w) (p : Fin n) (q : Fin K) :
    Host.gather d x idx (ix2 p q) = x (ix2 ⟨min (idx (ix2 p (0 : Fin 1))).toInt.toNat (G - 1), by omega⟩ q) := by
  obtain ⟨off, coll, ob, sb, sim, ivd, ss, wf⟩ := d
  dsimp only at hoff hcoll hob hsim hivd
  subst hoff hcoll hob hsim hivd
  unfold Host.gather
  congr 1
  funext a
  apply Fin.ext
  match a with
  | ⟨0, _⟩ =>
    -- the collapsed axis: the clamped start index, no batching or offset coordinate
    show GatherDims.start _ (ix2 p q) idx 0 + GatherDims.batchCoord _ (ix2 p q) 0 + GatherDims.offCoord _ (ix2 p q) 0
      = min (idx (ix2 p (0 : Fin 1))).toInt.toNat (G - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ ([0] : List (Fin 2)) from List.mem_singleton.mpr rfl)]
    have hsl : ss 0 = 1 :=
      GatherDims.slice_collapsed ⟨[1], [0], [], sb, [0], 1, ss, wf⟩ 0 (List.mem_singleton.mpr rfl)
    have hsi : GatherDims.siIdx ⟨[1], [0], [], sb, [0], 1, ss, wf⟩ (ix2 p q)
        ⟨List.idxOf (0 : Fin 2) [0], List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    show min _ (G - ss 0) = _
    rw [hsl]
  | ⟨1, _⟩ =>
    -- the carried axis: no start index, the result's offset coordinate
    show GatherDims.start _ (ix2 p q) idx 1 + GatherDims.batchCoord _ (ix2 p q) 1 + GatherDims.offCoord _ (ix2 p q) 1 = q.val
    rw [GatherDims.batchCoord_eq_zero _ _ _ List.not_mem_nil]
    unfold GatherDims.start
    rw [dif_neg (show ¬(1 : Fin 2) ∈ ([0] : List (Fin 2)) by decide)]
    simp only [Nat.add_zero, Nat.zero_add]
    unfold GatherDims.offCoord
    rw [dif_pos (show (1 : Fin 2) ∈ GatherDims.sKept ⟨[1], [0], [], sb, [0], 1, ss, wf⟩ from
      (GatherDims.mem_sKept _ _).mpr ⟨(by decide : ¬(1 : Fin 2) ∈ ([0] : List (Fin 2))), List.not_mem_nil⟩)]
    rfl

end Idealize.ShloMosaic.RowGather

end
-- ==== Proof.NodeUpdate.lean ====
/-
  The node update of a graph network, as one function of the argument arrays.

  Node `n` has 128 features of its own, 48 aggregated edge features `agg n` (the sum of the features of the edges it
  receives) and the 64 global features of its graph, row `graphRow (ids n)` of the globals table. The update of the
  node is `relu ([nodes n | agg n | globals (graph of n)] · W + b)`: output feature `j` is

    max (nodeTerm n j + edgeTerm n j + globTerm (graph of n) j + b j) 0,

  the three terms being the partial sums of the one contraction over the 240 rows of `W`: rows 0–127 against the node's
  own features, rows 128–175 against the aggregated edge features, rows 176–239 against the graph's globals.
  Sums over the extended reals are commutative and associative, so cutting the contraction at rows 128 and 176 needs no
  finiteness; neither does selecting one row of a table by a 0/1 indicator, since `0 * x = 0` for every extended real.
-/
import Idealize.ShloMosaic.Lib.ValueIdx
import Idealize.ShloMosaic.Lib.Affine
import Mathlib.Algebra.BigOperators.Fin

noncomputable section

open scoped BigOperators

namespace Cert.NodeUpdate

open Idealize.ShloMosaic Idealize.ShloMosaic.ValueIdx

/-- A graph id as a row of the 8-row globals table: the word read signed and clamped into `[0, 7]`. -/
def graphRow (w : BitVec 32) : Fin 8 := ⟨min w.toInt.toNat 7, by omega⟩

/-- A graph id clamped into `[0, 7]` on words: the larger of 0 and the id, then the smaller of 7 and that. -/
def clip (w : BitVec 32) : BitVec 32 := IntOp.minsi 7#32 (IntOp.maxsi 0#32 w)

/-- For a non-negative id the clamped word is the row number. -/
theorem clip_eq (w : BitVec 32) (h : 0 ≤ w.toInt) : clip w = BitVec.ofNat 32 (graphRow w).val := by
  unfold clip IntOp.minsi IntOp.maxsi graphRow
  have h0 : w.slt 0#32 = false := by
    rw [Bool.eq_false_iff]; intro hh
    have := BitVec.slt_iff_toInt_lt.mp hh
    simp at this; omega
  rw [h0]
  simp only [Bool.false_eq_true, if_false]
  by_cases h7 : (7#32).slt w = true
  · rw [if_pos h7]
    have := BitVec.slt_iff_toInt_lt.mp h7
    simp at this
    have e : min w.toInt.toNat 7 = 7 := by omega
    simp only [e]
  · rw [if_neg h7]
    have h7' : ¬ (7#32).toInt < w.toInt := fun hh => h7 (BitVec.slt_iff_toInt_lt.mpr hh)
    simp at h7'
    have e : min w.toInt.toNat 7 = w.toInt.toNat := by omega
    simp only [e]
    apply BitVec.eq_of_toNat_eq
    rw [BitVec.toNat_ofNat]
    have hc := BitVec.toInt_eq_toNat_cond w
    have hlt := w.isLt
    split at hc <;> omega

/-- The graph indicator of a node with id `w` in column `g`: the bit "the clamped id is `g`" as a number. -/
def indicator (w : BitVec 32) (g : Fin 8) : EReal :=
  (((IntOp.cmpi .eq (clip w) (BitVec.ofNat 32 g.val)).toNat : ℝ) : EReal)

/-- It is 1 in the column of the id's row … -/
theorem indicator_self (w : BitVec 32) (h : 0 ≤ w.toInt) : indicator w (graphRow w) = 1 := by
  unfold indicator
  rw [clip_eq w h, (IntOp.cmpi_eq).mpr rfl]
  simp

/-- … and 0 in every other column. -/
theorem indicator_ne (w : BitVec 32) (h : 0 ≤ w.toInt) (g : Fin 8) (hg : g ≠ graphRow w) : indicator w g = 0 := by
  unfold indicator
  rw [clip_eq w h]
  have hne : IntOp.cmpi .eq (BitVec.ofNat 32 (graphRow w).val) (BitVec.ofNat 32 g.val) = 0#1 :=
    ValueIdx.eq_zero_of_ne_one fun h1 => hg (by
      have e := (IntOp.cmpi_eq).mp h1
      have e' := congrArg BitVec.toNat e
      simp only [BitVec.toNat_ofNat] at e'
      have := (graphRow w).isLt; have := g.isLt
      exact Fin.ext (by omega))
  rw [hne]
  simp

abbrev SNodes : Shape := ⟨2, ![100000, 128]⟩
abbrev SAgg : Shape := ⟨2, ![100000, 48]⟩
abbrev SGlob : Shape := ⟨2, ![8, 64]⟩
abbrev SW : Shape := ⟨2, ![240, 128]⟩
abbrev SBias : Shape := ⟨1, ![128]⟩
abbrev SIds : Shape := ⟨1, ![100000]⟩

/-- Rows 0–127 of `W` against node `n`'s own features. -/
def nodeTerm (nodes : SNodes.Idx → EReal) (W : SW.Idx → EReal) (n : Fin 100000) (j : Fin 128) : EReal :=
  ∑ k : Fin 128, nodes (ix2 n k) * W (ix2 (⟨k.val, by omega⟩ : Fin 240) j)

/-- Rows 128–175 of `W` against node `n`'s aggregated edge features. -/
def edgeTerm (agg : SAgg.Idx → EReal) (W : SW.Idx → EReal) (n : Fin 100000) (j : Fin 128) : EReal :=
  ∑ k : Fin 48, agg (ix2 n k) * W (ix2 (⟨128 + k.val, by omega⟩ : Fin 240) j)

/-- Rows 176–239 of `W` against row `r` of the globals table. -/
def globTerm (glob : SGlob.Idx → EReal) (W : SW.Idx → EReal) (r : Fin 8) (j : Fin 128) : EReal :=
  ∑ k : Fin 64, glob (ix2 r k) * W (ix2 (⟨176 + k.val, by omega⟩ : Fin 240) j)

/-- THE UPDATE: every node's new features from the argument arrays and the aggregated edge features. -/
def update (nodes : SNodes.Idx → EReal) (agg : SAgg.Idx → EReal) (glob : SGlob.Idx → EReal) (W : SW.Idx → EReal)
    (b : SBias.Idx → EReal) (ids : SIds.Idx → BitVec 32) : SNodes.Idx → EReal := fun i =>
  max (nodeTerm nodes W (i 0) (i 1) + edgeTerm agg W (i 0) (i 1)
    + globTerm glob W (graphRow (ids (ix1 (i 0)))) (i 1) + b (ix1 (i 1))) 0

/-- A contraction over 240 rows cut at rows 128 and 176. -/
theorem sum_cut (f : Fin 240 → EReal) :
    ∑ k, f k = (∑ k : Fin 128, f ⟨k.val, by omega⟩) + (∑ k : Fin 48, f ⟨128 + k.val, by omega⟩)
      + ∑ k : Fin 64, f ⟨176 + k.val, by omega⟩ := by
  show ∑ k : Fin (128 + 48 + 64), f k = _
  rw [Fin.sum_univ_add, Fin.sum_univ_add]
  rfl

/-- A 0/1 indicator of row `r` against a table's column picks the table's entry in row `r`. -/
theorem sum_indicator (r : Fin 8) (ind tbl : Fin 8 → EReal) (h1 : ind r = 1) (h0 : ∀ g, g ≠ r → ind g = 0) :
    ∑ g, ind g * tbl g = tbl r := by
  rw [Finset.sum_eq_single r (fun g _ hg => by rw [h0 g hg, zero_mul]) (fun h => absurd (Finset.mem_univ r) h), h1, one_mul]

end Cert.NodeUpdate

end
-- ==== Proof.RefValue.lean ====
/-
  The reference computes the node update.

  The reference gathers each node's graph globals (row `ids n` of the table, a negative id first moved up by 8, the
  result clamped into the table), lays `[nodes | agg | gathered globals]` side by side as 240 columns, contracts them
  with the 240 rows of `W`, adds the bias and takes the maximum with 0. For a non-negative id the move does nothing and the
  clamped row is `graphRow`; cutting the contraction at columns 128 and 176 gives the three terms of `NodeUpdate.update`.
-/
import proofs.«410478_j17386027614329_3_alg».proof.Proof.Gen.ReferenceIdeal.Read
import proofs.«410478_j17386027614329_3_alg».proof.Proof.LibRowGather
import proofs.«410478_j17386027614329_3_alg».proof.Proof.NodeUpdate

noncomputable section

open scoped BigOperators

namespace Cert.ReferenceIdeal.RefValue

open Cert.ReferenceIdeal Cert.ReferenceIdeal.Gen Cert.ReferenceIdeal.Read Idealize.ShloMosaic Idealize.ShloMosaic.ValueIdx
open Cert.NodeUpdate

/-- Columns 0–127 of the joined array are the node features. -/
theorem joined_nodes (u0 : S100000x128.Idx → EReal) (u1 : S100000x48.Idx → EReal) (u2 : S100000x64.Idx → EReal)
    (n : Fin 100000) (k : Fin 128) :
    concatenate S100000x240 1 [⟨S100000x128, u0⟩, ⟨S100000x48, u1⟩, ⟨S100000x64, u2⟩]
      Facts₀.concatenates_S100000x128_S100000x48_S100000x64_S100000x240_d1 (ix2 n (⟨k.val, by omega⟩ : Fin 240)) = u0 (ix2 n k) :=
  concatenate_apply_piece (t := S100000x240) (1 : Fin 2) [⟨S100000x128, u0⟩, ⟨S100000x48, u1⟩, ⟨S100000x64, u2⟩] _ _ 0 (show 0 < 3 by decide) S100000x128 u0 rfl rfl 0 rfl (ix2 n k)
    (fun b hb => by match b with | ⟨0, _⟩ => rfl | ⟨1, _⟩ => exact absurd rfl hb) (Nat.zero_add _)

/-- Columns 128–175 are the aggregated edge features. -/
theorem joined_agg (u0 : S100000x128.Idx → EReal) (u1 : S100000x48.Idx → EReal) (u2 : S100000x64.Idx → EReal)
    (n : Fin 100000) (k : Fin 48) :
    concatenate S100000x240 1 [⟨S100000x128, u0⟩, ⟨S100000x48, u1⟩, ⟨S100000x64, u2⟩]
      Facts₀.concatenates_S100000x128_S100000x48_S100000x64_S100000x240_d1 (ix2 n (⟨128 + k.val, by omega⟩ : Fin 240)) = u1 (ix2 n k) :=
  concatenate_apply_piece (t := S100000x240) (1 : Fin 2) [⟨S100000x128, u0⟩, ⟨S100000x48, u1⟩, ⟨S100000x64, u2⟩] _ _ 1 (show 1 < 3 by decide) S100000x48 u1 rfl rfl 128 rfl (ix2 n k)
    (fun b hb => by match b with | ⟨0, _⟩ => rfl | ⟨1, _⟩ => exact absurd rfl hb) rfl

/-- Columns 176–239 are the gathered globals. -/
theorem joined_glob (u0 : S100000x128.Idx → EReal) (u1 : S100000x48.Idx → EReal) (u2 : S100000x64.Idx → EReal)
    (n : Fin 100000) (k : Fin 64) :
    concatenate S100000x240 1 [⟨S100000x128, u0⟩, ⟨S100000x48, u1⟩, ⟨S100000x64, u2⟩]
      Facts₀.concatenates_S100000x128_S100000x48_S100000x64_S100000x240_d1 (ix2 n (⟨176 + k.val, by omega⟩ : Fin 240)) = u2 (ix2 n k) :=
  concatenate_apply_piece (t := S100000x240) (1 : Fin 2) [⟨S100000x128, u0⟩, ⟨S100000x48, u1⟩, ⟨S100000x64, u2⟩] _ _ 2 (show 2 < 3 by decide) S100000x64 u2 rfl rfl 176 rfl (ix2 n k)
    (fun b hb => by match b with | ⟨0, _⟩ => rfl | ⟨1, _⟩ => exact absurd rfl hb) rfl

/-- The start index the gather reads for node `n`: a non-negative id is left as it is. -/
theorem start_index (x6 : S100000.Idx → BitVec 32) (n : Fin 100000) (h : 0 ≤ (x6 (ix1 n)).toInt) :
    val_main_v8 (F := Ideal) x6 (ix2 n (0 : Fin 1)) = x6 (ix1 n) := by
  rw [val_main_v8_apply, val_main_v7_apply, val_main_v4_apply, val_main_v3_apply, val_main_c_apply]
  have e : idx_main_v8 (ix2 n (0 : Fin 1)) = ix1 n := funext fun a => by match a with | ⟨0, _⟩ => rfl
  rw [e]
  have hc : IntOp.cmpi .slt (x6 (ix1 n)) 0#32 = 0#1 :=
    eq_zero_of_ne_one fun h1 => by
      have := IntOp.cmpi_slt.mp h1
      simp at this
      omega
  rw [hc, select_zero]

/-- The gathered globals of node `n`: row `graphRow (ids n)` of the table. -/
theorem gathered (x2 : S8x64.Idx → EReal) (x6 : S100000.Idx → BitVec 32) (n : Fin 100000) (k : Fin 64)
    (h : 0 ≤ (x6 (ix1 n)).toInt) :
    val_main_v9 (F := Ideal) x2 x6 (ix2 n k) = x2 (ix2 (graphRow (x6 (ix1 n))) k) := by
  unfold val_main_v9
  rw [RowGather.gather_rows_apply (by decide) _ rfl rfl rfl rfl rfl]
  refine congrArg x2 (congrArg (fun r : Fin 8 => ix2 r k) (Fin.ext ?_))
  show min (BitVec.toInt (val_main_v8 (F := Ideal) x6 (ix2 n (0 : Fin 1)))).toNat (8 - 1) = min (x6 (ix1 n)).toInt.toNat 7
  rw [start_index x6 n h]

/-- THE REFERENCE'S RESULT is the node update of its argument arrays and the aggregated edge features. -/
theorem result_eq (x0 : S100000x128.Idx → EReal) (x1 : S1600000x48.Idx → EReal) (x2 : S8x64.Idx → EReal)
    (x3 : S240x128.Idx → EReal) (x4 : S128.Idx → EReal) (x5 : S1600000.Idx → BitVec 32) (x6 : S100000.Idx → BitVec 32)
    (hid : ∀ n : Fin 100000, 0 ≤ (x6 (ix1 n)).toInt) :
    val_main_v15 (F := Ideal) x0 x1 x2 x3 x4 x5 x6 = update x0 (val_main_v2 (F := Ideal) x1 x5) x2 x3 x4 x6 := by
  funext i
  obtain ⟨n, j, rfl⟩ : ∃ (n : Fin 100000) (j : Fin 128), i = ix2 n j := ⟨i 0, i 1, eq_ix2 i⟩
  rw [val_main_v15_apply, val_main_v14_apply, val_main_v11_apply, val_main_v13_apply, val_main_v12_apply,
    val_main_call0_v0_apply, val_main_call0_cst_apply]
  have hl : ∀ k : Fin 240, lidx_main_v11 (ix2 n j) k = ix2 n k := fun k => funext fun a => by
    match a with | ⟨0, _⟩ => rfl | ⟨1, _⟩ => rfl
  have hr : ∀ k : Fin 240, ridx_main_v11 (ix2 n j) k = ix2 k j := fun k => funext fun a => by
    match a with | ⟨0, _⟩ => rfl | ⟨1, _⟩ => rfl
  have hb : idx_main_v12 (idx_main_v13 (ix2 n j)) = ix1 j := funext fun a => by
    match a with | ⟨0, _⟩ => rfl
  rw [sum_cut]
  simp only [hl, hr, hb]
  unfold val_main_v10
  simp only [joined_nodes, joined_agg, joined_glob, gathered x2 x6 n _ (hid n)]
  show max (_ + x4 (ix1 j)) (Ideal.ofBits .f32 0x00000000#32) = _
  rw [Ideal.ofBits_zero_f32]
  rfl

end Cert.ReferenceIdeal.RefValue

end
-- ==== Proof.LibPlainDot.lean ====
/-
  A plain matrix product's contraction, re-indexed by its one coordinate.

  For dimension numbers `[1] x [0]` with no batch axes — an `[M, K]` operand times a `[K, N]` operand — the sum over the
  contraction index of the operands' products at output element `(p, q)` is `∑ k : Fin K, l (p, k) * r (k, q)`. Both a
  kernel's `tpu.matmul` and the host's `dot_general`, read at the exact values, are this sum.
-/
import Idealize.ShloMosaic.Lib.ValueIdx

noncomputable section

open scoped BigOperators

namespace Idealize.ShloMosaic.PlainDot

open Idealize.ShloMosaic Idealize.ShloMosaic.ValueIdx

/-- The contraction at `(p, q)` as a sum over `Fin K`. The hypotheses are the printed dimension numbers, each closed by
    `rfl` on a program's record. -/
theorem sum_contr {R : Type} [AddCommMonoid R] [Mul R] {M K N : Nat}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → R) (r : (⟨2, ![K, N]⟩ : Shape).Idx → R) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims _ _ _) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx ⟨[1], [0], [0], [1], [], [], wf⟩ (ix2 p q)
      ((contrEquiv1 (⟨[1], [0], [0], [1], [], [], wf⟩ : DotDims ⟨2, ![M, K]⟩ ⟨2, ![K, N]⟩ ⟨2, ![M, N]⟩) K rfl rfl).symm k) = ix2 p k :=
    funext fun a => Fin.ext (by
      match a with
      | ⟨0, _⟩ => rfl
      | ⟨1, _⟩ => exact (DotDims.lhsIdx_val_of_single _ rfl _ _).trans hk)
  have er : DotDims.rhsIdx ⟨[1], [0], [0], [1], [], [], wf⟩ (ix2 p q)
      ((contrEquiv1 (⟨[1], [0], [0], [1], [], [], wf⟩ : DotDims ⟨2, ![M, K]⟩ ⟨2, ![K, N]⟩ ⟨2, ![M, N]⟩) K rfl rfl).symm k) = ix2 k q :=
    funext fun a => Fin.ext (by
      match a with
      | ⟨0, _⟩ => exact (DotDims.rhsIdx_val_of_single _ rfl _ _).trans hk
      | ⟨1, _⟩ => rfl)
  rw [el, er]

end Idealize.ShloMosaic.PlainDot

end
-- ==== Proof.KernelBody.lean ====
/-
  One output element of the kernel body.

  The body multiplies its 5000-row blocks of node features, aggregated edge features and graph indicators by the three
  weight tables, adds the three products and the bias row, and takes the maximum with 0. Row `p`, column `j` of what it
  stores is therefore

    max (∑ k, x0 (p, k) * wn (k, j) + ∑ k, x1 (p, k) * we (k, j) + ∑ g, x2 (p, g) * tbl (g, j) + bias (0, j)) 0

  over the exact values: each matrix product onto a zero accumulator is its plain contraction, and the changes of
  float format are the identity.
-/
import proofs.«410478_j17386027614329_3_alg».proof.Proof.Gen.KernelIdeal.Skeleton
import proofs.«410478_j17386027614329_3_alg».proof.Proof.LibPlainDot
import Idealize.ShloMosaic.PureOps.Ideal.Laws
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx

/-- The stored block at `(p, j)`. -/
theorem stored_apply (x0 : Vec Ideal S5000x128 .f32) (x1 : Vec Ideal S5000x48 .f32) (x2 : Vec Ideal S5000x8 .bf16)
    (x3 : Vec Ideal S128x128 .bf16) (x4 : Vec Ideal S48x128 .bf16) (x5 : Vec Ideal S8x128 .bf16) (x6 : Vec Ideal S1x128 .f32)
    (p : Fin 5000) (j : Fin 128) :
    k0_pay1 (F := Ideal) x0 x1 x2 x3 x4 x5 x6 (ix2 p j)
      = max ((∑ k : Fin 128, x0 (ix2 p k) * x3 (ix2 k j)) + (∑ k : Fin 48, x1 (ix2 p k) * x4 (ix2 k j))
          + (∑ g : Fin 8, x2 (ix2 p g) * x5 (ix2 g j)) + x6 (ix2 (0 : Fin 1) j)) 0 := by
  unfold k0_pay1
  simp only [shapeCast_self, maximumf_apply, addf_apply, broadcast_apply]
  simp only [matmul, Ideal.matmul_constant_zero_apply,
    PlainDot.sum_contr dot_S5000x128_S128x128_S5000x128_1_0_0_1_n_n rfl rfl rfl rfl rfl rfl,
    PlainDot.sum_contr dot_S5000x48_S48x128_S5000x128_1_0_0_1_n_n rfl rfl rfl rfl rfl rfl,
    PlainDot.sum_contr dot_S5000x8_S8x128_S5000x128_1_0_0_1_n_n rfl rfl rfl rfl rfl rfl, truncf_apply]
  rw [broadcastTo_apply x6 broadcasts_S1x128_S5000x128 (ix2 p j) (ix2 (0 : Fin 1) j) (fun a => by
    match a with
    | ⟨0, _⟩ => rfl
    | ⟨1, _⟩ => rfl)]
  show max _ (Ideal.ofBits .f32 0x00000000#32) = _
  rw [Ideal.ofBits_zero_f32]

end Cert.KernelIdeal.Body

end
-- ==== Proof.KernelEntry.lean ====
/-
  The arrays the kernel's windows read, as the host lines before the call leave them.

  Before the call the host computes: the aggregated edge features (a scatter-add of the edge features at their receivers);
  the graph indicator of every node (1 in the column of the node's clamped graph id, 0 elsewhere); the three row ranges
  0–127, 128–175 and 176–239 of `W`, the last multiplied by the globals table into one 8-row table; and the bias as a
  row. Each is read here at an index, from the argument arrays.
-/
import proofs.«410478_j17386027614329_3_alg».proof.Proof.Gen.KernelIdeal.Frame
import proofs.«410478_j17386027614329_3_alg».proof.Proof.LibPlainDot
import proofs.«410478_j17386027614329_3_alg».proof.Proof.NodeUpdate
import Idealize.ShloMosaic.PureOps.Ideal.Laws
import Idealize.ShloMosaic.Lib.Pipeline.Value
import Idealize.ShloMosaic.Lib.StableHlo.Run
import Idealize.ShloMosaic.Lib.ValueIdx

noncomputable section

open scoped BigOperators

namespace Cert.KernelIdeal.Entry

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-! The argument arrays and the windows' arrays at the call, each under a name of its literal type. -/

def nodesArr (c : Dev nD) : S100000x128.Idx → EReal := m ((c : Thread nD τ).loc main_arg0)
def edgesArr (c : Dev nD) : S1600000x48.Idx → EReal := m ((c : Thread nD τ).loc main_arg1)
def globArr (c : Dev nD) : S8x64.Idx → EReal := m ((c : Thread nD τ).loc main_arg2)
def wArr (c : Dev nD) : S240x128.Idx → EReal := m ((c : Thread nD τ).loc main_arg3)
def biasArr (c : Dev nD) : S128.Idx → EReal := m ((c : Thread nD τ).loc main_arg4)
def recvArr (c : Dev nD) : S1600000.Idx → BitVec 32 := m ((c : Thread nD τ).loc main_arg5)
def idsArr (c : Dev nD) : S100000.Idx → BitVec 32 := m ((c : Thread nD τ).loc main_arg6)

def nodesWin (c : Dev nD) : S100000x128.Idx → EReal := V m c main_arg0
def aggWin (c : Dev nD) : S100000x48.Idx → EReal := V m c main_v2
def indWin (c : Dev nD) : S100000x8.Idx → EReal := V m c main_v4
def wnWin (c : Dev nD) : S128x128.Idx → EReal := V m c main_v10
def weWin (c : Dev nD) : S48x128.Idx → EReal := V m c main_v11
def tblWin (c : Dev nD) : S8x128.Idx → EReal := V m c main_v9
def biasWin (c : Dev nD) : S1x128.Idx → EReal := V m c main_v12

/-- The aggregated edge features: the edge features scatter-added at their receivers onto zeros. -/
def agg (edges : S1600000x48.Idx → EReal) (recv : S1600000.Idx → BitVec 32) : S100000x48.Idx → EReal :=
  Host.scatterAdd (F := Ideal) scatter_S100000x48_S1600000x1_S1600000x48_1_0_0_1
    (broadcastInDim S100000x48 ![] Facts₀.bcast_S_S100000x48 (constant (F := Ideal) S_ .f32 0x00000000#32))
    (broadcastInDim S1600000x1 ![0] Facts₀.bcast_S1600000_S1600000x1_0 recv) edges

/-- The window of aggregated edge features holds them. -/
theorem agg_eq (c : Dev nD) :
    aggWin m c = agg (edgesArr m c) (recvArr m c) := by
  dsimp only [aggWin, indWin, wnWin, weWin, tblWin, biasWin, edgesArr, recvArr, idsArr, globArr, wArr, biasArr, V]
  simp only [hostOps0, hostOps0_1, hostOps0_2, hostOps0_3, List.flatten_cons, List.flatten_nil, List.append_nil, List.cons_append,
    List.nil_append]
  after_results
  try rfl

/-- The graph indicator at `(n, g)`: the bit "node `n`'s clamped id is `g`", as a number. -/
theorem indicator_apply (c : Dev nD) (n : Fin 100000) (g : Fin 8) :
    indWin m c (ix2 n g) = NodeUpdate.indicator (idsArr m c (ix1 n)) g := by
  dsimp only [aggWin, indWin, wnWin, weWin, tblWin, biasWin, edgesArr, recvArr, idsArr, globArr, wArr, biasArr, V]
  simp only [hostOps0, hostOps0_1, hostOps0_2, hostOps0_3, List.flatten_cons, List.flatten_nil, List.append_nil, List.cons_append,
    List.nil_append]
  after_results
  show FloatOps.uitofp (F := Ideal) .bf16 (IntOp.cmpi .eq
      (broadcastInDim S100000x8 ![0, 1] Facts₀.bcast_S100000x1_S100000x8_0_1
        (broadcastInDim S100000x1 ![0] Facts₀.bcast_S100000_S100000x1_0
          (minsi (broadcastInDim S100000 ![] Facts₀.bcast_S_S100000 (constantI S_ 32 7#32))
            (maxsi (broadcastInDim S100000 ![] Facts₀.bcast_S_S100000 (constantI S_ 32 0#32))
              (m ((c : Thread nD τ).loc main_arg6))))) (ix2 n g))
      (broadcastInDim S100000x8 ![0, 1] Facts₀.bcast_S1x8_S100000x8_0_1 (iotaInDim S1x8 32 1) (ix2 n g))) = _
  rw [broadcastInDim_apply ![0, 1] Facts₀.bcast_S100000x1_S100000x8_0_1 _ (ix2 n g) (ix2 n (0 : Fin 1)) (fun a => by
      match a with
      | ⟨0, _⟩ => show n.val = if (100000 : Nat) = 1 then 0 else n.val; rw [if_neg (by decide)]
      | ⟨1, _⟩ => show 0 = if (1 : Nat) = 1 then 0 else g.val; rw [if_pos rfl]),
    broadcastInDim_apply ![0] Facts₀.bcast_S100000_S100000x1_0 _ (ix2 n (0 : Fin 1)) (ix1 n) (fun a => by
      match a with
      | ⟨0, _⟩ => show n.val = if (100000 : Nat) = 1 then 0 else n.val; rw [if_neg (by decide)]),
    broadcastInDim_apply ![0, 1] Facts₀.bcast_S1x8_S100000x8_0_1 _ (ix2 n g) (ix2 (0 : Fin 1) g) (fun a => by
      match a with
      | ⟨0, _⟩ => show 0 = if (1 : Nat) = 1 then 0 else n.val; rw [if_pos rfl]
      | ⟨1, _⟩ => show g.val = if (8 : Nat) = 1 then 0 else g.val; rw [if_neg (by decide)])]
  rfl

/-- Rows 0–127 of `W`. -/
theorem wn_apply (c : Dev nD) (k : Fin 128) (j : Fin 128) :
    wnWin m c (ix2 k j) = wArr m c (ix2 (⟨k.val, by omega⟩ : Fin 240) j) := by
  dsimp only [aggWin, indWin, wnWin, weWin, tblWin, biasWin, edgesArr, recvArr, idsArr, globArr, wArr, biasArr, V]
  simp only [hostOps0, hostOps0_1, hostOps0_2, hostOps0_3, List.flatten_cons, List.flatten_nil, List.append_nil, List.cons_append,
    List.nil_append]
  after_results
  show extractStridedSlice S128x128 ![0, 0] (m ((c : Thread nD τ).loc main_arg3)) Facts₀.slices_S240x128_S128x128_0_0 (ix2 k j) = _
  exact extractStridedSlice_apply _ _ _ (ix2 k j) (ix2 (⟨k.val, by omega⟩ : Fin 240) j) (fun a => by
    match a with
    | ⟨0, _⟩ => exact (Nat.zero_add _).symm
    | ⟨1, _⟩ => exact (Nat.zero_add _).symm)

/-- Rows 128–175 of `W`. -/
theorem we_apply (c : Dev nD) (k : Fin 48) (j : Fin 128) :
    weWin m c (ix2 k j) = wArr m c (ix2 (⟨128 + k.val, by omega⟩ : Fin 240) j) := by
  dsimp only [aggWin, indWin, wnWin, weWin, tblWin, biasWin, edgesArr, recvArr, idsArr, globArr, wArr, biasArr, V]
  simp only [hostOps0, hostOps0_1, hostOps0_2, hostOps0_3, List.flatten_cons, List.flatten_nil, List.append_nil, List.cons_append,
    List.nil_append]
  after_results
  show extractStridedSlice S48x128 ![128, 0] (m ((c : Thread nD τ).loc main_arg3)) Facts₀.slices_S240x128_S48x128_128_0 (ix2 k j) = _
  exact extractStridedSlice_apply _ _ _ (ix2 k j) (ix2 (⟨128 + k.val, by omega⟩ : Fin 240) j) (fun a => by
    match a with
    | ⟨0, _⟩ => rfl
    | ⟨1, _⟩ => exact (Nat.zero_add _).symm)

/-- The globals table times rows 176–239 of `W`. -/
theorem tbl_apply (c : Dev nD) (g : Fin 8) (j : Fin 128) :
    tblWin m c (ix2 g j) = ∑ k : Fin 64, globArr m c (ix2 g k) * wArr m c (ix2 (⟨176 + k.val, by omega⟩ : Fin 240) j) := by
  dsimp only [aggWin, indWin, wnWin, weWin, tblWin, biasWin, edgesArr, recvArr, idsArr, globArr, wArr, biasArr, V]
  simp only [hostOps0, hostOps0_1, hostOps0_2, hostOps0_3, List.flatten_cons, List.flatten_nil, List.append_nil, List.cons_append,
    List.nil_append]
  after_results
  show Host.dotGeneral (F := Ideal) (φ₁ := .f32) (φ₂ := .f32) dot_S8x64_S64x128_S8x128_1_0_0_1_n_n none (globArr m c)
      (extractStridedSlice S64x128 ![176, 0] (wArr m c) Facts₀.slices_S240x128_S64x128_176_0) (ix2 g j) = _
  simp only [Host.dotGeneral]
  rw [Ideal.dotGeneral_apply, PlainDot.sum_contr dot_S8x64_S64x128_S8x128_1_0_0_1_n_n rfl rfl rfl rfl rfl rfl]
  refine Finset.sum_congr rfl fun k _ => ?_
  rw [extractStridedSlice_apply _ _ _ (ix2 k j) (ix2 (⟨176 + k.val, by omega⟩ : Fin 240) j) (fun a => by
    match a with
    | ⟨0, _⟩ => rfl
    | ⟨1, _⟩ => exact (Nat.zero_add _).symm)]
  rfl

/-- The bias as a row. -/
theorem bias_apply (c : Dev nD) (j : Fin 128) :
    biasWin m c (ix2 (0 : Fin 1) j) = biasArr m c (ix1 j) := by
  dsimp only [aggWin, indWin, wnWin, weWin, tblWin, biasWin, edgesArr, recvArr, idsArr, globArr, wArr, biasArr, V]
  simp only [hostOps0, hostOps0_1, hostOps0_2, hostOps0_3, List.flatten_cons, List.flatten_nil, List.append_nil, List.cons_append,
    List.nil_append]
  after_results
  show shapeCast S1x128 (biasArr m c) Facts₀.shapeCasts_S128_S1x128 (ix2 (0 : Fin 1) j) = _
  exact shapeCast_apply _ _ (ix2 (0 : Fin 1) j) (ix1 j) (by
    rw [Shape.rowMajor_val_one, Shape.rowMajor_val_two]
    show j.val = 0 * 128 + j.val
    omega)

end Cert.KernelIdeal.Entry

end
-- ==== Proof.KernelBridge.lean ====
/-
  The kernel's arithmetic is the node update.

  `blockwise` is the body's output element over the seven arrays the windows read. With those arrays read from the
  argument arrays — rows 0–127 and 128–175 of `W`, the globals table times rows 176–239, the bias row, the graph
  indicators — its first two sums are the node and edge terms; the third, the indicator row of node `n` against a column
  of the 8-row table, picks the table's entry in the row of the node's graph (the indicator is 1 there and 0 elsewhere,
  and `0 * x = 0` on the extended reals), which is the globals term.
-/
import proofs.«410478_j17386027614329_3_alg».proof.Proof.KernelEntry

noncomputable section

open scoped BigOperators

namespace Cert.KernelIdeal.Bridge

open Cert.KernelIdeal Cert.KernelIdeal.Gen Idealize.ShloMosaic Idealize.ShloMosaic.TcCoe Idealize.ShloMosaic.ValueIdx
open Idealize.SL.Sem
open Cert.KernelIdeal.Entry Cert.NodeUpdate

variable (m : (ℓ : Loc nD τ sig) → Buf (Elt Ideal) ℓ)

/-- The result array from the seven arrays the windows read: element `(n, j)` is the body's output element for row `n`. -/
def blockwise (a0 : S100000x128.Idx → EReal) (a1 : S100000x48.Idx → EReal) (a2 : S100000x8.Idx → EReal)
    (a3 : S128x128.Idx → EReal) (a4 : S48x128.Idx → EReal) (a5 : S8x128.Idx → EReal) (a6 : S1x128.Idx → EReal) :
    S100000x128.Idx → EReal := fun i =>
  max ((∑ k : Fin 128, a0 (ix2 (i 0) k) * a3 (ix2 k (i 1))) + (∑ k : Fin 48, a1 (ix2 (i 0) k) * a4 (ix2 k (i 1)))
    + (∑ g : Fin 8, a2 (ix2 (i 0) g) * a5 (ix2 g (i 1))) + a6 (ix2 (0 : Fin 1) (i 1))) 0

/-- Over the arrays the windows find, it is the node update of the argument arrays, when every graph id is non-negative. -/
theorem blockwise_eq_update (c : Dev nD) (hid : ∀ n : Fin 100000, 0 ≤ (idsArr m c (ix1 n)).toInt) :
    blockwise (nodesWin m c) (aggWin m c) (indWin m c) (wnWin m c) (weWin m c) (tblWin m c) (biasWin m c)
      = update (nodesArr m c) (agg (edgesArr m c) (recvArr m c)) (globArr m c) (wArr m c) (biasArr m c) (idsArr m c) := by
  funext i
  obtain ⟨n, j, rfl⟩ : ∃ (n : Fin 100000) (j : Fin 128), i = ix2 n j := ⟨i 0, i 1, eq_ix2 i⟩
  show max ((∑ k : Fin 128, nodesWin m c (ix2 n k) * wnWin m c (ix2 k j)) + (∑ k : Fin 48, aggWin m c (ix2 n k) * weWin m c (ix2 k j))
      + (∑ g : Fin 8, indWin m c (ix2 n g) * tblWin m c (ix2 g j)) + biasWin m c (ix2 (0 : Fin 1) j)) 0
    = max (nodeTerm (nodesArr m c) (wArr m c) n j + edgeTerm (agg (edgesArr m c) (recvArr m c)) (wArr m c) n j
      + globTerm (globArr m c) (wArr m c) (graphRow (idsArr m c (ix1 n))) j + biasArr m c (ix1 j)) 0
  have h0 : nodesWin m c = nodesArr m c := V_main_arg0 m c
  rw [h0, agg_eq m c]
  simp only [wn_apply, we_apply, bias_apply, indicator_apply]
  rw [sum_indicator (graphRow (idsArr m c (ix1 n))) (fun g => indicator (idsArr m c (ix1 n)) g) (fun g => tblWin m c (ix2 g j))
    (indicator_self _ (hid n)) (fun g hg => indicator_ne _ (hid n) g hg), tbl_apply]
  rfl

end Cert.KernelIdeal.Bridge

end
-- ==== Proof.KernelValue.lean ====
/-
  The kernel's result array.

  Grid point `t` of the 20 works on rows `5000 t … 5000 t + 4999`: it reads those rows of the node features, of the
  aggregated edge features and of the graph indicators, the three weight tables and the bias row whole, and writes back
  those rows of the result. So the result array is, row by row, the body's output element: one function `blockwise` of the
  seven arrays the windows read, and the 20 blocks of 5000 rows cover the 100000 rows.
-/
import proofs.«410478_j17386027614329_3_alg».proof.Proof.Gen.KernelIdeal.Value
import proofs.«410478_j17386027614329_3_alg».proof.Proof.KernelBody
import proofs.«410478_j17386027614329_3_alg».proof.Proof.KernelBridge

set_option maxRecDepth 16384

noncomputable section

open scoped BigOperators

namespace Cert.KernelIdeal.KValue

open Cert.KernelIdeal Cert.KernelIdeal.Gen Idealize.ShloMosaic Idealize.ShloMosaic.TcCoe Idealize.ShloMosaic.ValueIdx
open Idealize.SL.Sem
open Idealize.ShloMosaic.Pipeline (Dat)
open Cert.KernelIdeal.Entry Cert.KernelIdeal.Body Cert.KernelIdeal.Bridge

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the three row-blocked inputs and the output are at block `t` of their rows, the
    tables and the bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 20 := N_0 ▸ t.isLt

/-- Row `p` of block `t`. -/
def rowOf (t : Fin cfg0.N) (p : Fin 5000) : Fin 100000 := ⟨t.val * 5000 + p.val, by have := point_lt t; omega⟩

/-! Each window's block at point `t`, read at an element: rows `5000 t + p` of the three row-blocked arrays, the tables and
    the bias row whole. -/

theorem nodes_blk (c : Dev nD) (t : Fin cfg0.N) (p : Fin 5000) (k : Fin 128) :
    iblk m c 0 t (ix2 p k) = nodesWin m c (ix2 (rowOf t p) k) := by
  obtain ⟨e0, e1, -⟩ := idx_facts t
  unfold iblk nodesWin
  rw [View.read_apply, cast_eq]
  have hV : V m c (Pipeline.arrRef spec0 (0 : Fin cfg0.W)) = V m c main_arg0 := rfl
  rw [hV]
  refine congrArg (V m c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem agg_blk (c : Dev nD) (t : Fin cfg0.N) (p : Fin 5000) (k : Fin 48) :
    iblk m c 1 t (ix2 p k) = aggWin m c (ix2 (rowOf t p) k) := by
  obtain ⟨-, -, e0, e1, -⟩ := idx_facts t
  unfold iblk aggWin
  rw [View.read_apply, cast_eq]
  have hV : V m c (Pipeline.arrRef spec0 (1 : Fin cfg0.W)) = V m c main_v2 := rfl
  rw [hV]
  refine congrArg (V m c main_v2) (funext fun a => Fin.ext ?_)
  match a with
  | ⟨0, _⟩ => show win0_1.index t (0 : Fin 2) * 5000 + 1 * p.val = t.val * 5000 + p.val; omega
  | ⟨1, _⟩ => show win0_1.index t (1 : Fin 2) * 48 + 1 * k.val = k.val; omega

theorem ind_blk (c : Dev nD) (t : Fin cfg0.N) (p : Fin 5000) (g : Fin 8) :
    iblk m c 2 t (ix2 p g) = indWin m c (ix2 (rowOf t p) g) := by
  obtain ⟨-, -, -, -, e0, e1, -⟩ := idx_facts t
  unfold iblk indWin
  rw [View.read_apply, cast_eq]
  have hV : V m c (Pipeline.arrRef spec0 (2 : Fin cfg0.W)) = V m c main_v4 := rfl
  rw [hV]
  refine congrArg (V m c main_v4) (funext fun a => Fin.ext ?_)
  match a with
  | ⟨0, _⟩ => show win0_2.index t (0 : Fin 2) * 5000 + 1 * p.val = t.val * 5000 + p.val; omega
  | ⟨1, _⟩ => show win0_2.index t (1 : Fin 2) * 8 + 1 * g.val = g.val; omega

theorem wn_blk (c : Dev nD) (t : Fin cfg0.N) (k : Fin 128) (j : Fin 128) :
    iblk m c 3 t (ix2 k j) = wnWin m c (ix2 k j) := by
  obtain ⟨-, -, -, -, -, -, e0, e1, -⟩ := idx_facts t
  unfold iblk wnWin
  rw [View.read_apply, cast_eq]
  have hV : V m c (Pipeline.arrRef spec0 (3 : Fin cfg0.W)) = V m c main_v10 := rfl
  rw [hV]
  refine congrArg (V m c main_v10) (funext fun a => Fin.ext ?_)
  match a with
  | ⟨0, _⟩ => show win0_3.index t (0 : Fin 2) * 128 + 1 * k.val = k.val; omega
  | ⟨1, _⟩ => show win0_3.index t (1 : Fin 2) * 128 + 1 * j.val = j.val; omega

theorem we_blk (c : Dev nD) (t : Fin cfg0.N) (k : Fin 48) (j : Fin 128) :
    iblk m c 4 t (ix2 k j) = weWin m c (ix2 k j) := by
  obtain ⟨-, -, -, -, -, -, -, -, e0, e1, -⟩ := idx_facts t
  unfold iblk weWin
  rw [View.read_apply, cast_eq]
  have hV : V m c (Pipeline.arrRef spec0 (4 : Fin cfg0.W)) = V m c main_v11 := rfl
  rw [hV]
  refine congrArg (V m c main_v11) (funext fun a => Fin.ext ?_)
  match a with
  | ⟨0, _⟩ => show win0_4.index t (0 : Fin 2) * 48 + 1 * k.val = k.val; omega
  | ⟨1, _⟩ => show win0_4.index t (1 : Fin 2) * 128 + 1 * j.val = j.val; omega

theorem tbl_blk (c : Dev nD) (t : Fin cfg0.N) (g : Fin 8) (j : Fin 128) :
    iblk m c 5 t (ix2 g j) = tblWin m c (ix2 g j) := by
  obtain ⟨-, -, -, -, -, -, -, -, -, -, e0, e1, -⟩ := idx_facts t
  unfold iblk tblWin
  rw [View.read_apply, cast_eq]
  have hV : V m c (Pipeline.arrRef spec0 (5 : Fin cfg0.W)) = V m c main_v9 := rfl
  rw [hV]
  refine congrArg (V m c main_v9) (funext fun a => Fin.ext ?_)
  match a with
  | ⟨0, _⟩ => show win0_5.index t (0 : Fin 2) * 8 + 1 * g.val = g.val; omega
  | ⟨1, _⟩ => show win0_5.index t (1 : Fin 2) * 128 + 1 * j.val = j.val; omega

theorem bias_blk (c : Dev nD) (t : Fin cfg0.N) (j : Fin 128) :
    iblk m c 6 t (ix2 (0 : Fin 1) j) = biasWin m c (ix2 (0 : Fin 1) j) := by
  obtain ⟨-, -, -, -, -, -, -, -, -, -, -, -, e0, e1, -⟩ := idx_facts t
  unfold iblk biasWin
  rw [View.read_apply, cast_eq]
  have hV : V m c (Pipeline.arrRef spec0 (6 : Fin cfg0.W)) = V m c main_v12 := rfl
  rw [hV]
  refine congrArg (V m c main_v12) (funext fun a => Fin.ext ?_)
  match a with
  | ⟨0, _⟩ => show win0_6.index t (0 : Fin 2) * 1 + 1 * 0 = 0; omega
  | ⟨1, _⟩ => show win0_6.index t (1 : Fin 2) * 128 + 1 * j.val = j.val; omega

/-- Element `(p, j)` of the output's block `t` is element `(5000 t + p, j)` of the array. -/
theorem out_emb (t : Fin cfg0.N) (p : Fin 5000) (j : Fin 128) :
    ((cfg0.win 7).blk t).view.emb (ix2 p j) = (ix2 (rowOf t p) j : S100000x128.Idx) := by
  obtain ⟨-, -, -, -, -, -, -, -, -, -, -, -, -, -, e0, e1⟩ := idx_facts t
  refine funext fun a => Fin.ext ?_
  match a with
  | ⟨0, _⟩ => show win0_7.index t (0 : Fin 2) * 5000 + 1 * p.val = t.val * 5000 + p.val; omega
  | ⟨1, _⟩ => show win0_7.index t (1 : Fin 2) * 128 + 1 * j.val = j.val; omega

/-- WHAT POINT `t` WRITES BACK is block `t` of `blockwise` of the windows' arrays. -/
theorem flushed_eq (c : Dev nD) (t : Fin cfg0.N) :
    (dats m 0 c).flushed 7 t = ((cfg0.win 7).blk t).view.read (Elt Ideal)
      (blockwise (nodesWin m c) (aggWin m c) (indWin m c) (wnWin m c) (weWin m c) (tblWin m c) (biasWin m c)) := by
  rw [Value.flushed7]
  unfold out0_7
  rw [View.canon_unit_zero hz]
  simp only [View.ld_unit_zero (S := S5000x128) hz, View.ld_unit_zero (S := S5000x48) hz, View.ld_unit_zero (S := S5000x8) hz,
    View.ld_unit_zero (S := S128x128) hz, View.ld_unit_zero (S := S48x128) hz, View.ld_unit_zero (S := S8x128) hz,
    View.ld_unit_zero (S := S1x128) hz]
  funext y
  obtain ⟨p, j, rfl⟩ : ∃ (p : Fin 5000) (j : Fin 128), y = ix2 p j := ⟨y 0, y 1, eq_ix2 (n0 := 5000) (n1 := 128) y⟩
  show k0_pay1 (F := Ideal) (iblk m c 0 t) (iblk m c 1 t) (iblk m c 2 t) (iblk m c 3 t) (iblk m c 4 t) (iblk m c 5 t) (iblk m c 6 t) (ix2 p j)
    = blockwise (nodesWin m c) (aggWin m c) (indWin m c) (wnWin m c) (weWin m c) (tblWin m c) (biasWin m c)
        (((cfg0.win 7).blk t).view.emb (ix2 p j))
  refine (stored_apply _ _ _ _ _ _ _ p j).trans ?_
  rw [out_emb t p j]
  simp only [nodes_blk, agg_blk, ind_blk, wn_blk, we_blk, tbl_blk, bias_blk]
  rfl

/-- An index of the array is in point `t`'s block iff each coordinate is in the block's range on its axis. -/
theorem mem_blk (t : Fin cfg0.N) (i : S100000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v13).slice (win0_7.rect t)).set ↔ _
  rw [View.set_slice_whole, Rect.mem_set_unit]
  exact Iff.rfl

/-- The 20 blocks of 5000 rows cover the array: row `r` is in block `r / 5000`. -/
theorem cover (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨-, -, -, -, -, -, -, -, -, -, -, -, -, -, e0, e1⟩ := idx_facts t
  have ht : t.val = (i 0).val / 5000 := rfl
  refine ⟨t, flush0_7 t, ?_⟩
  rw [mem_blk]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- THE RESULT ARRAY after the run is `blockwise` of the arrays the windows find. -/
theorem final (c : Dev nD) :
    (dats m 0 c).arrAt 7 cfg0.N
      = blockwise (nodesWin m c) (aggWin m c) (indWin m c) (wnWin m c) (weWin m c) (tblWin m c) (biasWin m c) :=
  (dats m 0 c).arrAt_eq_of_cover 7 _ (fun t _ => flushed_eq m c t) cover

/-- THE RUN: the kernel's program ends with its result at the node update of its argument arrays, the arguments unchanged,
    when every graph id is non-negative. -/
theorem run (hid : ∀ (c : Dev nD) (n : Fin 100000), 0 ≤ (idsArr m c (ix1 n)).toInt) :
    θ_run defs (onTc (τ := τ) (main (F := Ideal))) ⟨m, fun _ => 0, ρ⟩ fun r => ∀ c : Dev nD,
      r.2.mem ((c : Thread nD τ).loc main_v13)
        = NodeUpdate.update (nodesArr m c) (agg (edgesArr m c) (recvArr m c)) (globArr m c) (wArr m c) (biasArr m c) (idsArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (blockwise_eq_update m c (hid c))), (h c).2⟩)
    (Value.run_blocks m ρ)

end Cert.KernelIdeal.KValue

end
-- ==== Proof.lean ====
/- The node update of a graph network: the kernel against its reference, over the extended reals.

   Both programs compute, for every node `n` and output feature `j`,
   `max (nodes n · W[0:128, j] + agg n · W[128:176, j] + globals (graph of n) · W[176:240, j] + b j) 0`, where `agg` is the same
   scatter-add of the edge features at their receivers in both (one function of the same arguments, never opened).
   The reference gathers the graph's globals row and contracts the 240 joined columns at once; the kernel multiplies the
   globals table by rows 176–239 of `W` first and selects the row by a 0/1 indicator of the node's clamped graph id, in blocks
   of 5000 nodes. The two agree where the graph id is non-negative: there the reference's row (a negative id would be moved
   up by 8) and the kernel's clamp name the same row of the table. That is the one conjunct added to the precondition;
   finiteness of the float inputs is not used (sums on the extended reals are associative and commutative, `0 * x = 0`).
   The frames are the generated ones; the reference's frame is its run with the result dropped. -/
import proofs.«410478_j17386027614329_3_alg».proof.Defs
import proofs.«410478_j17386027614329_3_alg».proof.Proof.Gen.Kernel
import proofs.«410478_j17386027614329_3_alg».proof.Proof.Gen.Kernel.Skeleton
import proofs.«410478_j17386027614329_3_alg».proof.Proof.Gen.Kernel.Launch
import proofs.«410478_j17386027614329_3_alg».proof.Proof.Gen.Kernel.Points
import proofs.«410478_j17386027614329_3_alg».proof.Proof.Gen.Kernel.Frame
import proofs.«410478_j17386027614329_3_alg».proof.Proof.Gen.KernelIdeal
import proofs.«410478_j17386027614329_3_alg».proof.Proof.Gen.KernelIdeal.Skeleton
import proofs.«410478_j17386027614329_3_alg».proof.Proof.Gen.KernelIdeal.Launch
import proofs.«410478_j17386027614329_3_alg».proof.Proof.Gen.KernelIdeal.Points
import proofs.«410478_j17386027614329_3_alg».proof.Proof.Gen.KernelIdeal.Frame
import proofs.«410478_j17386027614329_3_alg».proof.Proof.Gen.ReferenceIdeal
import proofs.«410478_j17386027614329_3_alg».proof.Proof.Gen.Pre_finite_inputs
import proofs.«410478_j17386027614329_3_alg».proof.Proof.Gen.KernelIdeal.Value
import proofs.«410478_j17386027614329_3_alg».proof.Proof.Gen.ReferenceIdeal.Run
import proofs.«410478_j17386027614329_3_alg».proof.Proof.Gen.ReferenceIdeal.Read
import proofs.«410478_j17386027614329_3_alg».proof.Proof.IdsNonneg
import proofs.«410478_j17386027614329_3_alg».proof.Proof.RefValue
import proofs.«410478_j17386027614329_3_alg».proof.Proof.KernelValue
import Idealize.ShloMosaic.Adequacy
import Idealize.ShloMosaic.Init

noncomputable section

namespace Cert.Proof

open Idealize.ShloMosaic Idealize.SL.Sem Cert.Kernel

open Idealize.ShloMosaic.ValueIdx

/-- Under the precondition every graph id of the kernel's launch memory is non-negative. -/
theorem ids_nonneg (m : (ℓ : Loc Cert.KernelIdeal.nD Cert.KernelIdeal.τ Cert.KernelIdeal.sig) → Buf (Elt Ideal) ℓ)
    (h : Cert.Pre_KernelIdeal m) (c : Dev Cert.KernelIdeal.nD) (n : Fin 100000) :
    0 ≤ (Cert.KernelIdeal.Entry.idsArr m c (ix1 n)).toInt :=
  Cert.Pre_finite_inputs.Decode.ids_nonneg _ _ _ _ _ _ _ (h c) (ix1 n)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end at the node update of the kernel's argument arrays: the kernel's by its blocks, the reference's by its
    run read stage by stage, its arguments being the kernel's. -/
theorem algebraic : Cert.algebraic_KernelIdeal_ReferenceIdeal := by
  intro m ρ m' ρ' hpre hagree
  have hid := ids_nonneg m hpre
  refine ⟨_, Cert.KernelIdeal.KValue.run m ρ hid, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v15_eq, a0, a1, a2, a3, a4, a5, a6]
  exact Cert.ReferenceIdeal.RefValue.result_eq _ _ _ _ _ _ _ (hid c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
